-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8 : Shape := ⟨1, ![8]⟩
abbrev S8x2048x16384 : Shape := ⟨3, ![8, 2048, 16384]⟩
abbrev S8x8192x2048 : Shape := ⟨3, ![8, 8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x16384 : S_.BroadcastsInDim S8x2048x16384 (![] : Fin 0 → Fin S8x2048x16384.rank)
  reducesTo_S8x2048x16384_S_d0_1_2 : S8x2048x16384.ReducesTo [0, 1, 2] S_
  bcast_S_S8x8192x2048 : S_.BroadcastsInDim S8x8192x2048 (![] : Fin 0 → Fin S8x8192x2048.rank)
  reducesTo_S8x8192x2048_S_d0_1_2 : S8x8192x2048.ReducesTo [0, 1, 2] S_

variable [Facts]

def fn {F : FTy → Type} [FloatOps F] (main_arg0 : FVec F S8192x2048 .f32) (main_arg1 : IVec S8 32) (main_arg2 : FVec F S8x2048x16384 .f32) (main_arg3 : FVec F S8x8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x16384 .f32 := Host.absf main_arg2
  let main_cst_0 : FVec F S_ .f32 := constant S_ .f32 0x7F800000#32
  let main_v5 : FVec F S8x2048x16384 .f32 := broadcastInDim S8x2048x16384 ![] bcast_S_S8x2048x16384 main_cst_0
  let main_v6 : IVec S8x2048x16384 1 := cmpf .olt main_v4 main_v5
  let main_c_1 : IVec S_ 1 := constantI S_ 1 1#1
  let main_v7 : IVec S_ 1 := (fun x v => Host.reduce IntOp.andi x v reducesTo_S8x2048x16384_S_d0_1_2 h_S_) main_v6 main_c_1
  let main_v8 : IVec S_ 1 := andi main_v3 main_v7
  let main_v9 : FVec F S8x8192x2048 .f32 := Host.absf main_arg3
  let main_cst_2 : FVec F S_ .f32 := constant S_ .f32 0x7F800000#32
  let main_v10 : FVec F S8x8192x2048 .f32 := broadcastInDim S8x8192x2048 ![] bcast_S_S8x8192x2048 main_cst_2
  let main_v11 : IVec S8x8192x2048 1 := cmpf .olt main_v9 main_v10
  let main_c_3 : IVec S_ 1 := constantI S_ 1 1#1
  let main_v12 : IVec S_ 1 := (fun x v => Host.reduce IntOp.andi x v reducesTo_S8x8192x2048_S_d0_1_2 h_S_) main_v11 main_c_3
  let main_v13 : IVec S_ 1 := andi main_v8 main_v12
  main_v13
-- ==== Kernel.lean ====
abbrev S8192x2048 : Shape := ⟨2, ![8192, 2048]⟩
abbrev S8 : Shape := ⟨1, ![8]⟩
abbrev S8x2048x16384 : Shape := ⟨3, ![8, 2048, 16384]⟩
abbrev S8x8192x2048 : Shape := ⟨3, ![8, 8192, 2048]⟩
abbrev S8x1024x2048 : Shape := ⟨3, ![8, 1024, 2048]⟩
abbrev S1x512x2048 : Shape := ⟨3, ![1, 512, 2048]⟩
abbrev S1x2048x256 : Shape := ⟨3, ![1, 2048, 256]⟩
abbrev S1x256x2048 : Shape := ⟨3, ![1, 256, 2048]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x16384, .f32⟩
  | .hbm, ⟨3, _⟩ => ⟨S8x8192x2048, .f32⟩
  | .hbm, ⟨4, _⟩ => ⟨S8x1024x2048, .f32⟩
  | .hbm, ⟨5, _⟩ => ⟨S8x1024x2048, .f32⟩
  | .hbm, ⟨6, _⟩ => ⟨S8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x512x2048, .f32⟩
  | .local _ .vmem, ⟨9, _⟩ => ⟨S1x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg2 c32_i32
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S8x1024x2048_S8192x2048 : S8x1024x2048.ShapeCasts S8192x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .f32 = 32 ∨ (Rect.block (s := S8x1024x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x16384.size a
  hwx0_1 : ∀ i : grid0.Coords, EltTy.bits .f32 = 32 ∨ (Rect.block (s := S8x2048x16384) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x16384.size a
  hwx0_2 : ∀ i : grid0.Coords, EltTy.bits .f32 = 32 ∨ (Rect.block (s := S8x2048x16384) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x8192x2048.size a
  hwx0_3 : ∀ i : grid0.Coords, EltTy.bits .f32 = 32 ∨ (Rect.block (s := S8x8192x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x1024x2048.size a
  hwx0_4 : ∀ i : grid0.Coords, EltTy.bits .f32 = 32 ∨ (Rect.block (s := S8x1024x2048) S1x512x2048.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8 : Shape := ⟨1, ![8]⟩
abbrev S8x2048x16384 : Shape := ⟨3, ![8, 2048, 16384]⟩
abbrev S8x8192x2048 : Shape := ⟨3, ![8, 8192, 2048]⟩
abbrev S8x1024x2048 : Shape := ⟨3, ![8, 1024, 2048]⟩
abbrev S8x1024x16384 : Shape := ⟨3, ![8, 1024, 16384]⟩
abbrev S8x1024x8192 : Shape := ⟨3, ![8, 1024, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x16384, .f32⟩
  | .hbm, ⟨3, _⟩ => ⟨S8x8192x2048, .f32⟩
  | .hbm, ⟨4, _⟩ => ⟨S8x1024x2048, .f32⟩
  | .hbm, ⟨5, _⟩ => ⟨S8x1024x16384, .f32⟩
  | .hbm, ⟨6, _⟩ => ⟨S8x1024x8192, .f32⟩
  | .hbm, ⟨7, _⟩ => ⟨S8x1024x8192, .f32⟩
  | .hbm, ⟨8, _⟩ => ⟨S8x1024x8192, .f32⟩
  | .hbm, ⟨9, _⟩ => ⟨S8x1024x8192, .f32⟩
  | .hbm, ⟨10, _⟩ => ⟨S_, .f32⟩
  | .hbm, ⟨11, _⟩ => ⟨S8x1024x8192, .f32⟩
  | .hbm, ⟨12, _⟩ => ⟨S8x1024x8192, .f32⟩
  | .hbm, ⟨13, _⟩ => ⟨S_, .f32⟩
  | .hbm, ⟨14, _⟩ => ⟨S8x1024x8192, .f32⟩
  | .hbm, ⟨15, _⟩ => ⟨S8x1024x8192, .f32⟩
  | .hbm, ⟨16, _⟩ => ⟨S8x1024x8192, .f32⟩
  | .hbm, ⟨17, _⟩ => ⟨S8x1024x8192, .f32⟩
  | .hbm, ⟨18, _⟩ => ⟨S8x1024x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x16384_S8x1024x8192_0_0_0 : S8x1024x16384.Slices ![0, 0, 0] S8x1024x8192
  slices_S8x1024x16384_S8x1024x8192_0_0_8192 : S8x1024x16384.Slices ![0, 0, 8192] S8x1024x8192
  bcast_S_S8x1024x8192 : S_.BroadcastsInDim S8x1024x8192 (![] : Fin 0 → Fin S8x1024x8192.rank)
  shapeCasts_S8x1024x2048_S8192x2048 : S8x1024x2048.ShapeCasts S8192x2048
  dot_S8x1024x2048_S8x2048x16384_S8x1024x16384_2_1_1_2_0_0_wf : DotDims.WF S8x1024x2048 S8x2048x16384 S8x1024x16384 [2] [1] [1] [2] [0] [0]
  dot_S8x1024x8192_S8x8192x2048_S8x1024x2048_2_1_1_2_0_0_wf : DotDims.WF S8x1024x8192 S8x8192x2048 S8x1024x2048 [2] [1] [1] [2] [0] [0]

variable [Facts₀]

def dot_S8x1024x2048_S8x2048x16384_S8x1024x16384_2_1_1_2_0_0 : DotDims S8x1024x2048 S8x2048x16384 S8x1024x16384 where
  lhsContracting := [2]
  rhsContracting := [1]
  lhsNonContracting := [1]
  rhsNonContracting := [2]
  lhsBatch := [0]
  rhsBatch := [0]
  wf := dot_S8x1024x2048_S8x2048x16384_S8x1024x16384_2_1_1_2_0_0_wf
def dot_S8x1024x8192_S8x8192x2048_S8x1024x2048_2_1_1_2_0_0 : DotDims S8x1024x8192 S8x8192x2048 S8x1024x2048 where
  lhsContracting := [2]
  rhsContracting := [1]
  lhsNonContracting := [1]
  rhsNonContracting := [2]
  lhsBatch := [0]
  rhsBatch := [0]
  wf := dot_S8x1024x8192_S8x8192x2048_S8x1024x2048_2_1_1_2_0_0_wf

class Facts : Prop extends Facts₀ where

variable [Facts]
-- ==== Proof.KRuns.lean ====
/-
  The grouped expert MLP kernel's run, first part: what the point-by-point account of the pipeline is stated over.
  The grid is (token tile, expert, hidden tile) = 2 × 8 × 32; the output block of a (token tile, expert) pair is
  reset at hidden tile 0 and added to at every hidden tile, and written back after the last one. Here: the
  buffers as the region finds them (the host reshape of the tokens has run), each window's block read off its array,
  that an input's staging buffer holds its block at every point, and the closed form of the reset condition.
-/
import proofs.«118478_j43731357008245_1_alg».proof.Proof.Gen.Kernel.Launch
import proofs.«118478_j43731357008245_1_alg».proof.Proof.Gen.Kernel.Skeleton
import proofs.«118478_j43731357008245_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the reshape of the tokens. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape: it reduces to the region continued by the second reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The reshape writes only its result: the four arguments reach the region as launched. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
/-- The tokens as the kernel reads them: the argument reshaped to [expert, token, hidden]. -/
theorem V_main_v0 (c : Dev nD) : (V m c main_v0 : S8x1024x2048.Idx → Elt F .f32)
    = shapeCast S8x1024x2048 (m ((c : Thread nD τ).loc main_arg0)) shapeCasts_S8192x2048_S8x1024x2048 := by
  dsimp only [V, V0]; simp only [hostOps0, List.flatten_cons, List.flatten_nil, List.append_nil]; after_results; rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the token block is
    fetched once per (token tile, expert) pair and found again at the 31 later hidden tiles). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The reset condition -/

/-- The condition of the body's conditional: "the hidden tile is the first", from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 32): the hidden tile is the grid's last, fastest axis. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs the body is called with -/

/-- One staging buffer of the output window, through which its contents are stated. -/
abbrev VO0_4 : View sig .tc .vmem S1x512x2048 .f32 := (Memref.whole cc0_stg4_0 : Memref sig .tc .vmem S1x512x2048 .f32).view
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

end Cert.Kernel.Fr

end
-- ==== Proof.KRunA.lean ====
/-
  The kernel body run at a point where the hidden tile is the first: the output block is reset to zero, then the
  point's contribution is added to it and stored back. The inputs' staging buffers are only read.
-/
import proofs.«118478_j43731357008245_1_alg».proof.Proof.KRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref at a RESET point (the condition holds), as the list of
    stored pieces (last first), with the proof that on whole staging memrefs — the inputs' at their contents, the
    output's at anything — the body runs to the continuation holding the inputs' as they were and the output's buffer
    with those pieces written. -/
noncomputable def kernelRun0_A (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Fr

end
-- ==== Proof.KRunB.lean ====
/-
  The kernel body run at a point where the hidden tile is not the first: the point's contribution is added to what
  the output block held (what the point before left there) and stored back.
-/
import proofs.«118478_j43731357008245_1_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref at an ACCUMULATING point (the condition fails), the
    output's buffer holding `xo` when the body starts. -/
noncomputable def kernelRun0_B (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo : Vec F S1x512x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Fr

end
-- ==== Proof.KFrame.lean ====
/-
  The kernel's run, point by point: what the output block's staging buffer holds after each of the 512 grid points
  (at a reset point the reset case's result, otherwise the accumulating case's result over what the point before
  left), the proof data of the pipeline — the first weight array is read through two windows (its gate columns and
  its value columns), each holding half of it —, and the body obligation at every point.
-/
import proofs.«118478_j43731357008245_1_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The reset case's pieces tile the output block, so they cover it. -/
theorem cover0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) (y : S1x512x2048.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x512x2048.size (by sl_kernel_rfl) y

/-- What the reset case leaves in the output's staging buffer: its pieces read back. -/
def out0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) : Vec F S1x512x2048 .f32 :=
  VO0_4.read (Elt F) (VO0_4.writes (Elt F) VO0_4.junk (kernelRun0_A c i arg3 harg3 arg4 harg4 arg5 harg5 arg6 harg6 arg7 harg7 hc0 x0 x1 x2 x3).1)

/-- The accumulating case's pieces tile the output block, so they cover it. -/
theorem cover0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo : Vec F S1x512x2048 .f32) (y : S1x512x2048.Idx) :
    ∃ pc ∈ (kernelRun0_B c i arg3 harg3 arg4 harg4 arg5 harg5 arg6 harg6 arg7 harg7 hc0 x0 x1 x2 x3 xo).1, y ∈ pc.1.set :=
  View.cover_of_tiledL (kernelRun0_B c i arg3 harg3 arg4 harg4 arg5 harg5 arg6 harg6 arg7 harg7 hc0 x0 x1 x2 x3 xo).1 S1x512x2048.size (by sl_kernel_rfl) y

/-- What the accumulating case leaves in the output's staging buffer: its pieces read back. -/
def out0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo : Vec F S1x512x2048 .f32) : Vec F S1x512x2048 .f32 :=
  VO0_4.read (Elt F) (VO0_4.writes (Elt F) VO0_4.junk (kernelRun0_B c i arg3 harg3 arg4 harg4 arg5 harg5 arg6 harg6 arg7 harg7 hc0 x0 x1 x2 x3 xo).1)

/-! ## What the output's buffer holds after each point -/

/-- THE ACCUMULATION: what the output's staging buffer holds after the body at position `n` of the grid's order — at a
    first hidden tile the reset case on the point's blocks, else the accumulating case on the point's blocks over what
    this leaves at `n - 1`. -/
def outsAt0 (c : Dev nD) : (n : ℕ) → n < cfg0.N → Vec F S1x512x2048 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 32 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a reset point. -/
theorem outsAt0_A (c : Dev nD) (t : Fin cfg0.N) (h0 : t.val % 32 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 32 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its block and
    the output's at `outsAt0`; the invariant the scoped rest and the generator register; nothing owed. The first weight
    array is behind two windows: each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At an accumulating point the output's current staging buffer holds what the body left at the point before: the
    point is not the first and the buffer was not written back between (write-backs follow the last hidden tile). -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks; the closed form says which case the point is in; at an
    accumulating point the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 512 := lt_of_lt_of_eq t.isLt (show cfg0.N = 512 from N_0)
  by_cases h0 : t.val % 32 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KLaunch.lean ====
/-
  The kernel's launch: @main is the reshape of the tokens, the region, the reshape of the result. The first weight array
  is behind two windows; its full share is dealt to them half and half when the region is entered. After the region
  the second reshape reads the output array and writes the result. Every weakly fair execution terminates with the
  result at the reshape of the output array as the pipeline's account leaves it, and the four arguments unchanged.
-/
import proofs.«118478_j43731357008245_1_alg».proof.Proof.KFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result as the run leaves it: the reshape of the output array after the last write-back. -/
abbrev result (c : Dev nD) : Buf (Elt F) ((c : Thread nD τ).loc main_v2) :=
  shapeCast S8192x2048 ((dats m 0 c).arrAt 4 cfg0.N : S8x1024x2048.Idx → Elt F .f32) shapeCasts_S8x1024x2048_S8192x2048

/-- The buffers behind the windows' arrays, whole, dealt to the five windows: the first weight array's full share splits
    into the halves its gate window and its value window hold. -/
theorem hsplit (c : Dev nD) : (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  rw [BI.bigSep_eq_bigSepL_of_eq [main_v0, main_arg2, main_arg3, main_v1] (by decide) (by decide), bigSep_W0]
  rw [(arr_whole0 0).set_eq_univ, (arr_whole0 1).set_eq_univ, (arr_whole0 3).set_eq_univ, (arr_whole0 4).set_eq_univ]
  show iprop((c.tc.loc main_v0 ↦{fullShare} V m c main_v0) ∗ (c.tc.loc main_arg2 ↦{fullShare} V m c main_arg2) ∗ (c.tc.loc main_arg3 ↦{fullShare} V m c main_arg3) ∗ (c.tc.loc main_v1 ↦{fullShare} V m c main_v1))
    ⊢ iprop((c.tc.loc main_v0 ↦{fullShare} V m c main_v0) ∗ (c.tc.loc main_arg2 ↦{fullShare.left} V m c main_arg2) ∗ (c.tc.loc main_arg2 ↦{fullShare.right} V m c main_arg2) ∗ (c.tc.loc main_arg3 ↦{fullShare} V m c main_arg3) ∗ (c.tc.loc main_v1 ↦{fullShare} V m c main_v1))
  iintro ⟨H0, H2, H3, H1⟩
  ihave H2' := (pointsTo_share (PosShare.mem_left_op_right fullShare)).1 $$ H2
  icases H2' with ⟨H2l, H2r⟩
  isplitl [H0]; · iexact H0
  isplitl [H2l]; · iexact H2l
  isplitl [H2r]; · iexact H2r
  isplitl [H3]; · iexact H3
  iexact H1

/-- What the run ends holding beside the arrays: the two arguments no window stages, and the result. -/
def Zp (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_v2) ↦{fullShare} result m c))

/-- The two buffers the second reshape touches. -/
abbrev S2 : Finset (DevRef τ sig) := {Proc.devRef .tc main_v1, Proc.devRef .tc main_v2}

/-- The buffers' contents at the region's exit, as far as the second reshape reads them. -/
def Wx (c : Dev nD) : Valuation τ sig (Elt F) := Function.update (V0 m c) (Proc.devRef .tc main_v1) ((dats m 0 c).arrAt 4 cfg0.N)

set_option backward.isDefEq.respectTransparency.types false in
/-- The second reshape, run from the region's exit: it reads the output array and writes the result. -/
theorem htail (c : Dev nD) (Q' : PUnit → sProp 𝕄) :
    iprop((iprop((dats m 0 c).arrays ((dats m 0 c).arrAt · cfg0.N) ∗ Zp m c) -∗ Q' ⟨⟩)
        ∗ boundary (c.tc : Thread nD τ) ∗ (dats m 0 c).arrays ((dats m 0 c).arrAt · cfg0.N) ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ (Pipeline.chain [StableHlo.seq hostOps1]) Q' := by
  rw [unscopedRest0_eq c (V m c)]
  unfold Dat.arrays Zp
  rw [bigSep_W0, (arr_whole0 0).set_eq_univ, (arr_whole0 1).set_eq_univ, (arr_whole0 3).set_eq_univ, (arr_whole0 4).set_eq_univ]
  simp only [Pipeline.chain_cons, Pipeline.chain_nil]
  iintro ⟨Hk, Hb, ⟨A0, A1, A2, A3, A4⟩, ⟨R0, R1, R2⟩⟩
  have hne : (Proc.devRef (τ := τ) .tc main_v1 : DevRef τ sig) ∉ ({Proc.devRef .tc main_v2} : Finset (DevRef τ sig)) := by
    rw [Finset.mem_singleton]; exact StableHlo.devRef_ne_of_ne (by decide)
  have hS (W : Valuation τ sig (Elt F)) : (StableHlo.held (c.tc : Thread nD τ) S2 W : sProp 𝕄)
      = iprop((((c : Thread nD τ).loc main_v1) ↦{fullShare} W (Proc.devRef .tc main_v1)) ∗ (((c : Thread nD τ).loc main_v2) ↦{fullShare} W (Proc.devRef .tc main_v2))) := by
    unfold StableHlo.held S2; rw [BI.bigSep_insert hne, BI.bigSep_singleton]; rfl
  have hW1 : Wx m c (Proc.devRef .tc main_v1) = (dats m 0 c).arrAt 4 cfg0.N := by unfold Wx; exact Function.update_self ..
  have hW2 : Wx m c (Proc.devRef .tc main_v2) = V m c main_v2 := by
    unfold Wx; exact Function.update_of_ne (StableHlo.devRef_ne_of_ne (by decide)) ..
  have hA1 : StableHlo.after hostOps1 (Wx m c) (Proc.devRef .tc main_v1) = (dats m 0 c).arrAt 4 cfg0.N := by
    rw [StableHlo.after_of_forall_not_mem hostOps1 (Wx m c) (fun op hop => by
      simp only [hostOps1, List.mem_cons, List.mem_nil_iff, or_false] at hop; subst hop
      simp only [StableHlo.reshape_writes, Finset.mem_singleton]; exact StableHlo.devRef_ne_of_ne (by decide)), hW1]
  have hA2 : StableHlo.after hostOps1 (Wx m c) (Proc.devRef .tc main_v2) = result m c := by
    unfold result; rw [← hW1]; after_results; rfl
  have hsub : ∀ op ∈ (hostOps1 : List (HloOp τ sig (Elt F))), op.bufs ⊆ S2 := by
    intro op hop; simp only [hostOps1, List.mem_cons, List.mem_nil_iff, or_false] at hop; subst hop; exact subset_of_eq (StableHlo.reshape_bufs ..)
  have hfr : ∀ op ∈ (hostOps1 : List (HloOp τ sig (Elt F))), op.fresh = ∅ := fun op hop => (List.forall_iff_forall_mem.mp hostOps1_fresh) op hop
  ihave Hw := (StableHlo.wp_seq (Variants.lift Variants.none) none Set.univ c S2 (fun _ => Pure.pure PUnit.unit) hostOps1 hsub hfr (Wx m c)) $$ [Hb A4 R2]
  · isplitl [Hb]; · iexact Hb
    rw [hS, hW1, hW2]
    isplitl [A4]; · iexact A4
    iexact R2
  iapply Hw
  iintro ⟨Hb, Hh⟩
  ihave Hh' := (Entails.of_eq (hS _)) $$ Hh
  rw [hA1, hA2]
  icases Hh' with ⟨A4, R2⟩
  rw [wp_pure]
  imodintro
  iapply Hk
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  iexact R2

-- the launch theorem's implicit arguments are found by unifying its conclusion with this one, which takes unfolding plain
-- definitions in a metavariable's type
set_option backward.isDefEq.respectTransparency.types false in
/-- At the compiled mesh, for any float values, from any memory with zero counters: every weakly fair execution of @main
    terminates, the result is the reshape of the output array as the pipeline's account leaves it, and the four argument
    arrays are as launched. -/
theorem run_main : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zp m)
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_arg0) = V m c main_arg0 ∧ s.mem ((c.tc : Thread nD τ).loc main_arg1) = V m c main_arg1
      ∧ s.mem ((c.tc : Thread nD τ).loc main_v2) = result m c)
    (hY := fun c s' => by
      unfold Zp
      iintro ⟨-, ⟨H0, H1, H2⟩, HSI⟩
      icombine HSI H0 gives %h0
      icombine HSI H1 gives %h1
      icombine HSI H2 gives %h2
      imodintro
      isplitr; · ipureintro; exact ⟨Buf.eq_of_forall_mem_univ h0, Buf.eq_of_forall_mem_univ h1, Buf.eq_of_forall_mem_univ h2⟩
      iexact HSI)
    (hQ := fun s h c => by
      obtain ⟨ha, -, h0, h1, h2⟩ := h c
      refine ⟨h2, h0.trans (V_main_arg0 m c), h1.trans (V_main_arg1 m c), ?_, ?_⟩
      · exact (ha 1).trans (((dats m 0 c).arrAt_in 1 rfl _).trans ((A_eq m c 1).trans (V_main_arg2 m c)))
      · exact (ha 3).trans (((dats m 0 c).arrAt_in 3 rfl _).trans ((A_eq m c 3).trans (V_main_arg3 m c))))

/-- The frame: every weakly fair execution terminates, nothing faults, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Fr

end
-- ==== Proof.KIRuns.lean ====
/-
  The grouped expert MLP kernel's run, first part: what the point-by-point account of the pipeline is stated over.
  The grid is (token tile, expert, hidden tile) = 2 × 8 × 32; the output block of a (token tile, expert) pair is
  reset at hidden tile 0 and added to at every hidden tile, and written back after the last one. Here: the
  buffers as the region finds them (the host reshape of the tokens has run), each window's block read off its array,
  that an input's staging buffer holds its block at every point, and the closed form of the reset condition.
-/
import proofs.«118478_j43731357008245_1_alg».proof.Proof.Gen.KernelIdeal.Launch
import proofs.«118478_j43731357008245_1_alg».proof.Proof.Gen.KernelIdeal.Skeleton
import proofs.«118478_j43731357008245_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the reshape of the tokens. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape: it reduces to the region continued by the second reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The reshape writes only its result: the four arguments reach the region as launched. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
/-- The tokens as the kernel reads them: the argument reshaped to [expert, token, hidden]. -/
theorem V_main_v0 (c : Dev nD) : (V m c main_v0 : S8x1024x2048.Idx → Elt F .f32)
    = shapeCast S8x1024x2048 (m ((c : Thread nD τ).loc main_arg0)) shapeCasts_S8192x2048_S8x1024x2048 := by
  dsimp only [V, V0]; simp only [hostOps0, List.flatten_cons, List.flatten_nil, List.append_nil]; after_results; rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the token block is
    fetched once per (token tile, expert) pair and found again at the 31 later hidden tiles). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The reset condition -/

/-- The condition of the body's conditional: "the hidden tile is the first", from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 32): the hidden tile is the grid's last, fastest axis. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs the body is called with -/

/-- One staging buffer of the output window, through which its contents are stated. -/
abbrev VO0_4 : View sig .tc .vmem S1x512x2048 .f32 := (Memref.whole cc0_stg4_0 : Memref sig .tc .vmem S1x512x2048 .f32).view
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KIRunA.lean ====
/-
  The kernel body run at a point where the hidden tile is the first: the output block is reset to zero, then the
  point's contribution is added to it and stored back. The inputs' staging buffers are only read.
-/
import proofs.«118478_j43731357008245_1_alg».proof.Proof.KIRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref at a RESET point (the condition holds), as the list of
    stored pieces (last first), with the proof that on whole staging memrefs — the inputs' at their contents, the
    output's at anything — the body runs to the continuation holding the inputs' as they were and the output's buffer
    with those pieces written. -/
noncomputable def kernelRun0_A (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Fr

end
-- ==== Proof.KIRunB.lean ====
/-
  The kernel body run at a point where the hidden tile is not the first: the point's contribution is added to what
  the output block held (what the point before left there) and stored back.
-/
import proofs.«118478_j43731357008245_1_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref at an ACCUMULATING point (the condition fails), the
    output's buffer holding `xo` when the body starts. -/
noncomputable def kernelRun0_B (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo : Vec F S1x512x2048 .f32) :
    { L4 : List (View.Piece (Elt F) S1x512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Fr

end
-- ==== Proof.KIFrame.lean ====
/-
  The kernel's run, point by point: what the output block's staging buffer holds after each of the 512 grid points
  (at a reset point the reset case's result, otherwise the accumulating case's result over what the point before
  left), the proof data of the pipeline — the first weight array is read through two windows (its gate columns and
  its value columns), each holding half of it —, and the body obligation at every point.
-/
import proofs.«118478_j43731357008245_1_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The reset case's pieces tile the output block, so they cover it. -/
theorem cover0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) (y : S1x512x2048.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x512x2048.size (by sl_kernel_rfl) y

/-- What the reset case leaves in the output's staging buffer: its pieces read back. -/
def out0_A_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) : Vec F S1x512x2048 .f32 :=
  VO0_4.read (Elt F) (VO0_4.writes (Elt F) VO0_4.junk (kernelRun0_A c i arg3 harg3 arg4 harg4 arg5 harg5 arg6 harg6 arg7 harg7 hc0 x0 x1 x2 x3).1)

/-- The accumulating case's pieces tile the output block, so they cover it. -/
theorem cover0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo : Vec F S1x512x2048 .f32) (y : S1x512x2048.Idx) :
    ∃ pc ∈ (kernelRun0_B c i arg3 harg3 arg4 harg4 arg5 harg5 arg6 harg6 arg7 harg7 hc0 x0 x1 x2 x3 xo).1, y ∈ pc.1.set :=
  View.cover_of_tiledL (kernelRun0_B c i arg3 harg3 arg4 harg4 arg5 harg5 arg6 harg6 arg7 harg7 hc0 x0 x1 x2 x3 xo).1 S1x512x2048.size (by sl_kernel_rfl) y

/-- What the accumulating case leaves in the output's staging buffer: its pieces read back. -/
def out0_B_4 (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo : Vec F S1x512x2048 .f32) : Vec F S1x512x2048 .f32 :=
  VO0_4.read (Elt F) (VO0_4.writes (Elt F) VO0_4.junk (kernelRun0_B c i arg3 harg3 arg4 harg4 arg5 harg5 arg6 harg6 arg7 harg7 hc0 x0 x1 x2 x3 xo).1)

/-! ## What the output's buffer holds after each point -/

/-- THE ACCUMULATION: what the output's staging buffer holds after the body at position `n` of the grid's order — at a
    first hidden tile the reset case on the point's blocks, else the accumulating case on the point's blocks over what
    this leaves at `n - 1`. -/
def outsAt0 (c : Dev nD) : (n : ℕ) → n < cfg0.N → Vec F S1x512x2048 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 32 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a reset point. -/
theorem outsAt0_A (c : Dev nD) (t : Fin cfg0.N) (h0 : t.val % 32 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 32 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its block and
    the output's at `outsAt0`; the invariant the scoped rest and the generator register; nothing owed. The first weight
    array is behind two windows: each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At an accumulating point the output's current staging buffer holds what the body left at the point before: the
    point is not the first and the buffer was not written back between (write-backs follow the last hidden tile). -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks; the closed form says which case the point is in; at an
    accumulating point the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 512 := lt_of_lt_of_eq t.isLt (show cfg0.N = 512 from N_0)
  by_cases h0 : t.val % 32 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KILaunch.lean ====
/-
  The kernel's launch: @main is the reshape of the tokens, the region, the reshape of the result. The first weight array
  is behind two windows; its full share is dealt to them half and half when the region is entered. After the region
  the second reshape reads the output array and writes the result. Every weakly fair execution terminates with the
  result at the reshape of the output array as the pipeline's account leaves it, and the four arguments unchanged.
-/
import proofs.«118478_j43731357008245_1_alg».proof.Proof.KIFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result as the run leaves it: the reshape of the output array after the last write-back. -/
abbrev result (c : Dev nD) : Buf (Elt F) ((c : Thread nD τ).loc main_v2) :=
  shapeCast S8192x2048 ((dats m 0 c).arrAt 4 cfg0.N : S8x1024x2048.Idx → Elt F .f32) shapeCasts_S8x1024x2048_S8192x2048

/-- The buffers behind the windows' arrays, whole, dealt to the five windows: the first weight array's full share splits
    into the halves its gate window and its value window hold. -/
theorem hsplit (c : Dev nD) : (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  rw [BI.bigSep_eq_bigSepL_of_eq [main_v0, main_arg2, main_arg3, main_v1] (by decide) (by decide), bigSep_W0]
  rw [(arr_whole0 0).set_eq_univ, (arr_whole0 1).set_eq_univ, (arr_whole0 3).set_eq_univ, (arr_whole0 4).set_eq_univ]
  show iprop((c.tc.loc main_v0 ↦{fullShare} V m c main_v0) ∗ (c.tc.loc main_arg2 ↦{fullShare} V m c main_arg2) ∗ (c.tc.loc main_arg3 ↦{fullShare} V m c main_arg3) ∗ (c.tc.loc main_v1 ↦{fullShare} V m c main_v1))
    ⊢ iprop((c.tc.loc main_v0 ↦{fullShare} V m c main_v0) ∗ (c.tc.loc main_arg2 ↦{fullShare.left} V m c main_arg2) ∗ (c.tc.loc main_arg2 ↦{fullShare.right} V m c main_arg2) ∗ (c.tc.loc main_arg3 ↦{fullShare} V m c main_arg3) ∗ (c.tc.loc main_v1 ↦{fullShare} V m c main_v1))
  iintro ⟨H0, H2, H3, H1⟩
  ihave H2' := (pointsTo_share (PosShare.mem_left_op_right fullShare)).1 $$ H2
  icases H2' with ⟨H2l, H2r⟩
  isplitl [H0]; · iexact H0
  isplitl [H2l]; · iexact H2l
  isplitl [H2r]; · iexact H2r
  isplitl [H3]; · iexact H3
  iexact H1

/-- What the run ends holding beside the arrays: the two arguments no window stages, and the result. -/
def Zp (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_v2) ↦{fullShare} result m c))

/-- The two buffers the second reshape touches. -/
abbrev S2 : Finset (DevRef τ sig) := {Proc.devRef .tc main_v1, Proc.devRef .tc main_v2}

/-- The buffers' contents at the region's exit, as far as the second reshape reads them. -/
def Wx (c : Dev nD) : Valuation τ sig (Elt F) := Function.update (V0 m c) (Proc.devRef .tc main_v1) ((dats m 0 c).arrAt 4 cfg0.N)

set_option backward.isDefEq.respectTransparency.types false in
/-- The second reshape, run from the region's exit: it reads the output array and writes the result. -/
theorem htail (c : Dev nD) (Q' : PUnit → sProp 𝕄) :
    iprop((iprop((dats m 0 c).arrays ((dats m 0 c).arrAt · cfg0.N) ∗ Zp m c) -∗ Q' ⟨⟩)
        ∗ boundary (c.tc : Thread nD τ) ∗ (dats m 0 c).arrays ((dats m 0 c).arrAt · cfg0.N) ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ (Pipeline.chain [StableHlo.seq hostOps1]) Q' := by
  rw [unscopedRest0_eq c (V m c)]
  unfold Dat.arrays Zp
  rw [bigSep_W0, (arr_whole0 0).set_eq_univ, (arr_whole0 1).set_eq_univ, (arr_whole0 3).set_eq_univ, (arr_whole0 4).set_eq_univ]
  simp only [Pipeline.chain_cons, Pipeline.chain_nil]
  iintro ⟨Hk, Hb, ⟨A0, A1, A2, A3, A4⟩, ⟨R0, R1, R2⟩⟩
  have hne : (Proc.devRef (τ := τ) .tc main_v1 : DevRef τ sig) ∉ ({Proc.devRef .tc main_v2} : Finset (DevRef τ sig)) := by
    rw [Finset.mem_singleton]; exact StableHlo.devRef_ne_of_ne (by decide)
  have hS (W : Valuation τ sig (Elt F)) : (StableHlo.held (c.tc : Thread nD τ) S2 W : sProp 𝕄)
      = iprop((((c : Thread nD τ).loc main_v1) ↦{fullShare} W (Proc.devRef .tc main_v1)) ∗ (((c : Thread nD τ).loc main_v2) ↦{fullShare} W (Proc.devRef .tc main_v2))) := by
    unfold StableHlo.held S2; rw [BI.bigSep_insert hne, BI.bigSep_singleton]; rfl
  have hW1 : Wx m c (Proc.devRef .tc main_v1) = (dats m 0 c).arrAt 4 cfg0.N := by unfold Wx; exact Function.update_self ..
  have hW2 : Wx m c (Proc.devRef .tc main_v2) = V m c main_v2 := by
    unfold Wx; exact Function.update_of_ne (StableHlo.devRef_ne_of_ne (by decide)) ..
  have hA1 : StableHlo.after hostOps1 (Wx m c) (Proc.devRef .tc main_v1) = (dats m 0 c).arrAt 4 cfg0.N := by
    rw [StableHlo.after_of_forall_not_mem hostOps1 (Wx m c) (fun op hop => by
      simp only [hostOps1, List.mem_cons, List.mem_nil_iff, or_false] at hop; subst hop
      simp only [StableHlo.reshape_writes, Finset.mem_singleton]; exact StableHlo.devRef_ne_of_ne (by decide)), hW1]
  have hA2 : StableHlo.after hostOps1 (Wx m c) (Proc.devRef .tc main_v2) = result m c := by
    unfold result; rw [← hW1]; after_results; rfl
  have hsub : ∀ op ∈ (hostOps1 : List (HloOp τ sig (Elt F))), op.bufs ⊆ S2 := by
    intro op hop; simp only [hostOps1, List.mem_cons, List.mem_nil_iff, or_false] at hop; subst hop; exact subset_of_eq (StableHlo.reshape_bufs ..)
  have hfr : ∀ op ∈ (hostOps1 : List (HloOp τ sig (Elt F))), op.fresh = ∅ := fun op hop => (List.forall_iff_forall_mem.mp hostOps1_fresh) op hop
  ihave Hw := (StableHlo.wp_seq (Variants.lift Variants.none) none Set.univ c S2 (fun _ => Pure.pure PUnit.unit) hostOps1 hsub hfr (Wx m c)) $$ [Hb A4 R2]
  · isplitl [Hb]; · iexact Hb
    rw [hS, hW1, hW2]
    isplitl [A4]; · iexact A4
    iexact R2
  iapply Hw
  iintro ⟨Hb, Hh⟩
  ihave Hh' := (Entails.of_eq (hS _)) $$ Hh
  rw [hA1, hA2]
  icases Hh' with ⟨A4, R2⟩
  rw [wp_pure]
  imodintro
  iapply Hk
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  iexact R2

-- the launch theorem's implicit arguments are found by unifying its conclusion with this one, which takes unfolding plain
-- definitions in a metavariable's type
set_option backward.isDefEq.respectTransparency.types false in
/-- At the compiled mesh, for any float values, from any memory with zero counters: every weakly fair execution of @main
    terminates, the result is the reshape of the output array as the pipeline's account leaves it, and the four argument
    arrays are as launched. -/
theorem run_main : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zp m)
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_arg0) = V m c main_arg0 ∧ s.mem ((c.tc : Thread nD τ).loc main_arg1) = V m c main_arg1
      ∧ s.mem ((c.tc : Thread nD τ).loc main_v2) = result m c)
    (hY := fun c s' => by
      unfold Zp
      iintro ⟨-, ⟨H0, H1, H2⟩, HSI⟩
      icombine HSI H0 gives %h0
      icombine HSI H1 gives %h1
      icombine HSI H2 gives %h2
      imodintro
      isplitr; · ipureintro; exact ⟨Buf.eq_of_forall_mem_univ h0, Buf.eq_of_forall_mem_univ h1, Buf.eq_of_forall_mem_univ h2⟩
      iexact HSI)
    (hQ := fun s h c => by
      obtain ⟨ha, -, h0, h1, h2⟩ := h c
      refine ⟨h2, h0.trans (V_main_arg0 m c), h1.trans (V_main_arg1 m c), ?_, ?_⟩
      · exact (ha 1).trans (((dats m 0 c).arrAt_in 1 rfl _).trans ((A_eq m c 1).trans (V_main_arg2 m c)))
      · exact (ha 3).trans (((dats m 0 c).arrAt_in 3 rfl _).trans ((A_eq m c 3).trans (V_main_arg3 m c))))

/-- The frame: every weakly fair execution terminates, nothing faults, and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Fr

end
-- ==== Proof.KIPieces.lean ====
/-
  What each case of the kernel body leaves in the output block, as one value: at a reset point the accumulating
  store's payload over the zero block the reset stored (the body reads the block back after the reset), at an
  accumulating point the same payload over what the block held.
-/
import proofs.«118478_j43731357008245_1_alg».proof.Proof.KIFrame
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable {F : FTy → Type} [FloatOps F]

/-- The stores' offsets, spelt as a literal vector, are all zero. -/
theorem hz3 : (![0, 0, 0] : Fin 3 → Nat) = fun _ => 0 := funext fun a => by fin_cases a <;> rfl

/-- The reset case leaves the accumulating payload of the point's blocks over the reset's zero block. -/
theorem out0_A_4_eq (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : cond0_0 i)
    (x0 : Vec F S1x512x2048 .f32) (x1 : Vec F S1x2048x256 .f32) (x2 : Vec F S1x2048x256 .f32) (x3 : Vec F S1x256x2048 .f32) :
    out0_A_4 c i arg3 harg3 arg4 harg4 arg5 harg5 arg6 harg6 arg7 harg7 hc0 x0 x1 x2 x3 = k0_pay2 x0 x1 x2 x3 (k0_pay1 (F := F)) := by
  unfold out0_A_4
  rw [View.read_writes_eq_canon _ _ _ (cover0_A_4 c i arg3 harg3 arg4 harg4 arg5 harg5 arg6 harg6 arg7 harg7 hc0 x0 x1 x2 x3)]
  unfold kernelRun0_A
  dsimp only
  sl_unfold_words
  rw [View.canon_cons_unit_zero (S := S1x512x2048) hz3, View.readCov_unit_zero (S := S1x512x2048) _ hz3]
  simp only [View.readAt_eq_ld, harg3.read_unread, harg4.read_unread, harg5.read_unread, harg6.read_unread,
    View.ld_unit_zero (S := S1x512x2048) hz3, View.ld_unit_zero (S := S1x2048x256) hz3,
    View.ld_unit_zero (S := S1x256x2048) hz3]

/-- The accumulating case leaves the accumulating payload of the point's blocks over what the block held. -/
theorem out0_B_4_eq (c : Dev nD) (i : grid0.Coords) (arg3 : Memref sig .tc .vmem S1x512x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (hc0 : ¬cond0_0 i)
    (x0 : Vec F S1x512x2048 .f32) (x1 : Vec F S1x2048x256 .f32) (x2 : Vec F S1x2048x256 .f32) (x3 : Vec F S1x256x2048 .f32) (xo : Vec F S1x512x2048 .f32) :
    out0_B_4 c i arg3 harg3 arg4 harg4 arg5 harg5 arg6 harg6 arg7 harg7 hc0 x0 x1 x2 x3 xo = k0_pay2 x0 x1 x2 x3 xo := by
  unfold out0_B_4
  rw [View.read_writes_eq_canon _ _ _ (cover0_B_4 c i arg3 harg3 arg4 harg4 arg5 harg5 arg6 harg6 arg7 harg7 hc0 x0 x1 x2 x3 xo)]
  unfold kernelRun0_B
  dsimp only
  sl_unfold_words
  rw [View.canon_unit_zero (S := S1x512x2048) hz3]
  simp only [View.readAt_eq_ld, harg3.read_unread, harg4.read_unread, harg5.read_unread, harg6.read_unread,
    harg7.read_unread, View.ld_unit_zero (S := S1x512x2048) hz3, View.ld_unit_zero (S := S1x2048x256) hz3,
    View.ld_unit_zero (S := S1x256x2048) hz3]

end Cert.KernelIdeal.Fr

end
-- ==== Proof.Spec.lean ====
/-
  The grouped expert MLP as one function of its three arrays, index by index, over the extended reals.

  Per expert `e`, token `t` and fused column `c` the first projection is `fc1 e t c = ∑ k, x e t k · w1 e k c`; its
  first 8192 columns gate its last 8192 through `silu(g) · v = (g · logistic g) · v`; the second projection is
  `out3 e t h = ∑ f, act e t f · w2 e f h`. The kernel reaches the same sum tile by tile: the 8192 hidden columns
  are 32 tiles of 256, and the sum over the tiles of the tiles' sums is the sum over the columns
  (commutativity and associativity of + on the extended reals: no finiteness is needed).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![8, 1024, 2048]⟩
abbrev SW1 : Shape := ⟨3, ![8, 2048, 16384]⟩
abbrev SW2 : Shape := ⟨3, ![8, 8192, 2048]⟩
abbrev BX : Shape := ⟨3, ![1, 512, 2048]⟩
abbrev BW1 : Shape := ⟨3, ![1, 2048, 256]⟩
abbrev BW2 : Shape := ⟨3, ![1, 256, 2048]⟩

/-- The gated activation: `silu(g) · v` with `silu(g) = g · logistic g`. -/
def swiglu (g v : EReal) : EReal := (g * Ideal.logistic g) * v

/-- Hidden column `f`'s gate column of the fused projection, -/
def colG (f : Fin 8192) : Fin 16384 := ⟨f.val, by have := f.isLt; omega⟩
/-- and its value column. -/
def colV (f : Fin 8192) : Fin 16384 := ⟨f.val + 8192, by have := f.isLt; omega⟩
/-- Column `f'` of hidden tile `j`. -/
def tileCol (j : Fin 32) (f' : Fin 256) : Fin 8192 := ⟨j.val * 256 + f'.val, by have := j.isLt; have := f'.isLt; omega⟩
/-- Row `r` of token tile `tt`. -/
def tileRow (tt : Fin 2) (r : Fin 512) : Fin 1024 := ⟨tt.val * 512 + r.val, by have := tt.isLt; have := r.isLt; omega⟩

section
variable (x : FVec Ideal SX .f32) (w1 : FVec Ideal SW1 .f32) (w2 : FVec Ideal SW2 .f32)

/-- The first projection. -/
def fc1 (e : Fin 8) (t : Fin 1024) (c : Fin 16384) : EReal := ∑ k : Fin 2048, x (ix3 e t k) * w1 (ix3 e k c)
/-- The gated activation at hidden column `f`. -/
def act (e : Fin 8) (t : Fin 1024) (f : Fin 8192) : EReal := swiglu (fc1 x w1 e t (colG f)) (fc1 x w1 e t (colV f))
/-- The second projection: the result. -/
def out3 (e : Fin 8) (t : Fin 1024) (h : Fin 2048) : EReal := ∑ f : Fin 8192, act x w1 e t f * w2 (ix3 e f h)
/-- The result as an array. -/
def G3 : FVec Ideal SX .f32 := fun i => out3 x w1 w2 (i 0) (i 1) (i 2)

/-- Hidden tile `j`'s part of the second projection. -/
def tileSum (e : Fin 8) (t : Fin 1024) (h : Fin 2048) (j : Fin 32) : EReal :=
  ∑ f' : Fin 256, act x w1 e t (tileCol j f') * w2 (ix3 e (tileCol j f') h)
/-- The running sum the kernel keeps: zero, then one tile's part added per hidden tile. -/
def accOut (e : Fin 8) (t : Fin 1024) (h : Fin 2048) : ℕ → EReal
  | 0 => 0
  | n + 1 => accOut e t h n + (if hn : n < 32 then tileSum x w1 w2 e t h ⟨n, hn⟩ else 0)

/-- The running sum after `n` steps is the sum of the first `n` tiles' parts. -/
theorem accOut_eq_sum (e : Fin 8) (t : Fin 1024) (h : Fin 2048) (n : ℕ) :
    accOut x w1 w2 e t h n
      = ∑ j ∈ Finset.range n, (if hj : j < 32 then tileSum x w1 w2 e t h ⟨j, hj⟩ else 0) := by
  induction n with
  | zero => simp [accOut]
  | succ n ih => rw [accOut, ih, Finset.sum_range_succ]

/-- A hidden column is a tile and a column within the tile: `f = 256 j + f'`. -/
def tileEquiv : Fin 32 × Fin 256 ≃ Fin 8192 where
  toFun p := tileCol p.1 p.2
  invFun f := (⟨f.val / 256, by have := f.isLt; omega⟩, ⟨f.val % 256, by omega⟩)
  left_inv := by
    rintro ⟨j, f'⟩
    have hj := j.isLt
    have hf := f'.isLt
    refine Prod.ext (Fin.ext ?_) (Fin.ext ?_)
    · show (j.val * 256 + f'.val) / 256 = j.val
      omega
    · show (j.val * 256 + f'.val) % 256 = f'.val
      omega
  right_inv := by
    intro f
    refine Fin.ext ?_
    show f.val / 256 * 256 + f.val % 256 = f.val
    omega

/-- After the 32 tiles the running sum is the second projection. -/
theorem accOut_32 (e : Fin 8) (t : Fin 1024) (h : Fin 2048) : accOut x w1 w2 e t h 32 = out3 x w1 w2 e t h := by
  rw [accOut_eq_sum, ← Fin.sum_univ_eq_sum_range
    (fun j => if hj : j < 32 then tileSum x w1 w2 e t h ⟨j, hj⟩ else 0) 32]
  have h1 : ∀ j : Fin 32, (if hj : j.val < 32 then tileSum x w1 w2 e t h ⟨j.val, hj⟩ else 0)
      = tileSum x w1 w2 e t h j := fun j => by rw [dif_pos j.isLt]
  rw [Finset.sum_congr rfl (fun j _ => h1 j)]
  unfold tileSum out3
  rw [← Fintype.sum_prod_type']
  exact Fintype.sum_equiv tileEquiv _ _ (fun p => rfl)
end

/-- One grid point's contribution to an output block's entry (r, h), from the point's blocks: the token block `x0`,
    the gate and value blocks `x1`, `x2` of the first weights, the block `x3` of the second weights. -/
def tileTerm (x0 : FVec Ideal BX .f32) (x1 x2 : FVec Ideal BW1 .f32) (x3 : FVec Ideal BW2 .f32) (r : Fin 512) (h : Fin 2048) : EReal :=
  ∑ f' : Fin 256, swiglu (∑ k : Fin 2048, x0 (ix3 0 r k) * x1 (ix3 0 k f')) (∑ k : Fin 2048, x0 (ix3 0 r k) * x2 (ix3 0 k f')) * x3 (ix3 0 f' h)

end Cert.Spec

end
-- ==== Proof.KIBlocks.lean ====
/-
  The windows' blocks read entry by entry off the arrays. Grid position `t` (of 512, row-major over
  token tile × expert × hidden tile = 2 × 8 × 32) is token tile `t / 256`, expert `(t / 32) % 8`, hidden tile `t % 32`;
  the token block is rows [512·tt, 512·tt + 512) of expert e's tokens, the two first-weight blocks are columns
  256·j + f' (gate) and 8192 + 256·j + f' (value) of expert e's fused projection, the second-weight block is rows
  256·j + f' of expert e's second projection.
-/
import proofs.«118478_j43731357008245_1_alg».proof.Proof.KIFrame
import proofs.«118478_j43731357008245_1_alg».proof.Proof.Spec
import Idealize.ShloMosaic.Lib.Pipeline.Value

set_option maxRecDepth 16384

noncomputable section

open scoped BigOperators

namespace Cert.KernelIdeal.Fr

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

theorem N_lt (t : Fin cfg0.N) : t.val < 512 := lt_of_lt_of_eq t.isLt (show cfg0.N = 512 from N_0)

/-- The token tile, the expert and the hidden tile of grid position `t`. -/
def ttOf (t : Fin cfg0.N) : Fin 2 := ⟨t.val / 256, by have := N_lt t; omega⟩
def eOf (t : Fin cfg0.N) : Fin 8 := ⟨t.val / 32 % 8, by omega⟩
def jOf (t : Fin cfg0.N) : Fin 32 := ⟨t.val % 32, by omega⟩

/-- The token window's block indices at grid position `t`: (expert, token tile, 0). -/
theorem idx_w0 : ∀ t : Fin cfg0.N, win0_0.index t (0 : Fin 3) = t.val / 32 % 8
    ∧ win0_0.index t (1 : Fin 3) = t.val / 256
    ∧ win0_0.index t (2 : Fin 3) = 0 :=
  (by decide +kernel : ∀ t : Fin grid0.N, _)

/-- The gate window's block indices: (expert, 0, hidden tile). -/
theorem idx_w1 : ∀ t : Fin cfg0.N, win0_1.index t (0 : Fin 3) = t.val / 32 % 8
    ∧ win0_1.index t (1 : Fin 3) = 0
    ∧ win0_1.index t (2 : Fin 3) = t.val % 32 :=
  (by decide +kernel : ∀ t : Fin grid0.N, _)

/-- The value window's block indices: (expert, 0, hidden tile + 32). -/
theorem idx_w2 : ∀ t : Fin cfg0.N, win0_2.index t (0 : Fin 3) = t.val / 32 % 8
    ∧ win0_2.index t (1 : Fin 3) = 0
    ∧ win0_2.index t (2 : Fin 3) = t.val % 32 + 32 :=
  (by decide +kernel : ∀ t : Fin grid0.N, _)

/-- The second-weight window's block indices: (expert, hidden tile, 0). -/
theorem idx_w3 : ∀ t : Fin cfg0.N, win0_3.index t (0 : Fin 3) = t.val / 32 % 8
    ∧ win0_3.index t (1 : Fin 3) = t.val % 32
    ∧ win0_3.index t (2 : Fin 3) = 0 :=
  (by decide +kernel : ∀ t : Fin grid0.N, _)

/-- The token block's entry (r, k). -/
theorem iblk0_apply (c : Dev nD) (t : Fin cfg0.N) (r : Fin 512) (k : Fin 2048) :
    (iblk m c 0 t : S1x512x2048.Idx → Elt F .f32) (ix3 0 r k)
      = (V m c main_v0 : S8x1024x2048.Idx → Elt F .f32) (ix3 (eOf t) (Cert.Spec.tileRow (ttOf t) r) k) := by
  obtain ⟨e0, e1, e2⟩ := idx_w0 t
  unfold iblk
  show V m c main_v0 (((cfg0.win 0).blk t).view.emb (ix3 0 r k)) = V m c main_v0 (ix3 (eOf t) (Cert.Spec.tileRow (ttOf t) r) k)
  refine congrArg _ ?_
  funext a; apply Fin.ext
  match a with
  | ⟨0, _⟩ => show win0_0.index t (0 : Fin 3) * 1 + 1 * 0 = t.val / 32 % 8; omega
  | ⟨1, _⟩ => show win0_0.index t (1 : Fin 3) * 512 + 1 * r.val = t.val / 256 * 512 + r.val; omega
  | ⟨2, _⟩ => show win0_0.index t (2 : Fin 3) * 2048 + 1 * k.val = k.val; omega

/-- The gate block's entry (k, f'). -/
theorem iblk1_apply (c : Dev nD) (t : Fin cfg0.N) (k : Fin 2048) (f' : Fin 256) :
    (iblk m c 1 t : S1x2048x256.Idx → Elt F .f32) (ix3 0 k f')
      = (V m c main_arg2 : S8x2048x16384.Idx → Elt F .f32) (ix3 (eOf t) k (Cert.Spec.colG (Cert.Spec.tileCol (jOf t) f'))) := by
  obtain ⟨e0, e1, e2⟩ := idx_w1 t
  unfold iblk
  show V m c main_arg2 (((cfg0.win 1).blk t).view.emb (ix3 0 k f')) = V m c main_arg2 (ix3 (eOf t) k (Cert.Spec.colG (Cert.Spec.tileCol (jOf t) f')))
  refine congrArg _ ?_
  funext a; apply Fin.ext
  match a with
  | ⟨0, _⟩ => show win0_1.index t (0 : Fin 3) * 1 + 1 * 0 = t.val / 32 % 8; omega
  | ⟨1, _⟩ => show win0_1.index t (1 : Fin 3) * 2048 + 1 * k.val = k.val; omega
  | ⟨2, _⟩ => show win0_1.index t (2 : Fin 3) * 256 + 1 * f'.val = t.val % 32 * 256 + f'.val; omega

/-- The value block's entry (k, f'). -/
theorem iblk2_apply (c : Dev nD) (t : Fin cfg0.N) (k : Fin 2048) (f' : Fin 256) :
    (iblk m c 2 t : S1x2048x256.Idx → Elt F .f32) (ix3 0 k f')
      = (V m c main_arg2 : S8x2048x16384.Idx → Elt F .f32) (ix3 (eOf t) k (Cert.Spec.colV (Cert.Spec.tileCol (jOf t) f'))) := by
  obtain ⟨e0, e1, e2⟩ := idx_w2 t
  unfold iblk
  show V m c main_arg2 (((cfg0.win 2).blk t).view.emb (ix3 0 k f')) = V m c main_arg2 (ix3 (eOf t) k (Cert.Spec.colV (Cert.Spec.tileCol (jOf t) f')))
  refine congrArg _ ?_
  funext a; apply Fin.ext
  match a with
  | ⟨0, _⟩ => show win0_2.index t (0 : Fin 3) * 1 + 1 * 0 = t.val / 32 % 8; omega
  | ⟨1, _⟩ => show win0_2.index t (1 : Fin 3) * 2048 + 1 * k.val = k.val; omega
  | ⟨2, _⟩ => show win0_2.index t (2 : Fin 3) * 256 + 1 * f'.val = t.val % 32 * 256 + f'.val + 8192; omega

/-- The second-weight block's entry (f', h). -/
theorem iblk3_apply (c : Dev nD) (t : Fin cfg0.N) (f' : Fin 256) (h : Fin 2048) :
    (iblk m c 3 t : S1x256x2048.Idx → Elt F .f32) (ix3 0 f' h)
      = (V m c main_arg3 : S8x8192x2048.Idx → Elt F .f32) (ix3 (eOf t) (Cert.Spec.tileCol (jOf t) f') h) := by
  obtain ⟨e0, e1, e2⟩ := idx_w3 t
  unfold iblk
  show V m c main_arg3 (((cfg0.win 3).blk t).view.emb (ix3 0 f' h)) = V m c main_arg3 (ix3 (eOf t) (Cert.Spec.tileCol (jOf t) f') h)
  refine congrArg _ ?_
  funext a; apply Fin.ext
  match a with
  | ⟨0, _⟩ => show win0_3.index t (0 : Fin 3) * 1 + 1 * 0 = t.val / 32 % 8; omega
  | ⟨1, _⟩ => show win0_3.index t (1 : Fin 3) * 256 + 1 * f'.val = t.val % 32 * 256 + f'.val; omega
  | ⟨2, _⟩ => show win0_3.index t (2 : Fin 3) * 2048 + 1 * h.val = h.val; omega

end Cert.KernelIdeal.Fr

end
-- ==== Proof.KIPayload.lean ====
/-
  The kernel body's arithmetic at one entry of the output block, on the extended reals: the reset stores zero, and the
  accumulating store adds to what the block held the point's contribution `Spec.tileTerm` — the two first-projection
  matmuls over the 2048 hidden inputs, the gate `(g · logistic g) · v`, and the second-projection matmul over the tile's
  256 columns (a change of float format is the identity here, and a matmul into a zero accumulator is the plain sum).
-/
import proofs.«118478_j43731357008245_1_alg».proof.Proof.Gen.KernelIdeal.Skeleton
import proofs.«118478_j43731357008245_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The unit axis: a block [1, a, b] viewed [a, b], and back -/

/-- Entry (r, k) of a [1, 512, 2048] block viewed [512, 2048] is the block's entry (0, r, k). -/
private theorem drop_512x2048 {α : Type} (v : S1x512x2048.Idx → α) (r : Fin 512) (k : Fin 2048) :
    shapeCast S512x2048 v shapeCasts_S1x512x2048_S512x2048 (ix2 r k) = v (ix3 0 r k) := by
  refine shapeCast_apply v shapeCasts_S1x512x2048_S512x2048 (ix2 r k) (ix3 0 r k) ?_
  rw [Shape.rowMajor_val_three, Shape.rowMajor_val_two]
  show (0 * 512 + r.val) * 2048 + k.val = r.val * 2048 + k.val
  omega

/-- Entry (k, f) of a [1, 2048, 256] block viewed [2048, 256] is the block's entry (0, k, f). -/
private theorem drop_2048x256 {α : Type} (v : S1x2048x256.Idx → α) (k : Fin 2048) (f : Fin 256) :
    shapeCast S2048x256 v shapeCasts_S1x2048x256_S2048x256 (ix2 k f) = v (ix3 0 k f) := by
  refine shapeCast_apply v shapeCasts_S1x2048x256_S2048x256 (ix2 k f) (ix3 0 k f) ?_
  rw [Shape.rowMajor_val_three, Shape.rowMajor_val_two]
  show (0 * 2048 + k.val) * 256 + f.val = k.val * 256 + f.val
  omega

/-- Entry (f, h) of a [1, 256, 2048] block viewed [256, 2048] is the block's entry (0, f, h). -/
private theorem drop_256x2048 {α : Type} (v : S1x256x2048.Idx → α) (f : Fin 256) (h : Fin 2048) :
    shapeCast S256x2048 v shapeCasts_S1x256x2048_S256x2048 (ix2 f h) = v (ix3 0 f h) := by
  refine shapeCast_apply v shapeCasts_S1x256x2048_S256x2048 (ix2 f h) (ix3 0 f h) ?_
  rw [Shape.rowMajor_val_three, Shape.rowMajor_val_two]
  show (0 * 256 + f.val) * 2048 + h.val = f.val * 2048 + h.val
  omega

/-- Entry (0, r, h) of a [512, 2048] value stored as a [1, 512, 2048] block is the value's entry (r, h). -/
private theorem add_512x2048 {α : Type} (v : S512x2048.Idx → α) (r : Fin 512) (h : Fin 2048) :
    shapeCast S1x512x2048 v shapeCasts_S512x2048_S1x512x2048 (ix3 0 r h) = v (ix2 r h) := by
  refine shapeCast_apply v shapeCasts_S512x2048_S1x512x2048 (ix3 0 r h) (ix2 r h) ?_
  rw [Shape.rowMajor_val_three, Shape.rowMajor_val_two]
  show r.val * 2048 + h.val = (0 * 512 + r.val) * 2048 + h.val
  omega

/-! ## The first projection's product: [512, 2048] by [2048, 256], contracting the 2048 hidden inputs -/

/-- The left operand's row is the result's row. -/
private theorem lhs_mm1_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
/-- The left operand's column is the contraction's coordinate. -/
private theorem lhs_mm1_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
/-- The right operand's row is the contraction's coordinate. -/
private theorem rhs_mm1_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
/-- The right operand's column is the result's column. -/
private theorem rhs_mm1_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- Into a zero accumulator the product's entry (p, c) is the sum over k of A (p, k) · B (k, c). -/
private theorem mm1_apply (A : FVec Ideal S512x2048 .bf16) (B : FVec Ideal S2048x256 .bf16) (p : Fin 512) (c : Fin 256) :
    matmul (F := Ideal) dot_S512x2048_S2048x256_S512x256_1_0_0_1_n_n none A B (constant (F := Ideal) S512x256 .f32 0x00000000#32) (ix2 p c)
      = ∑ k : Fin 2048, A (ix2 p k) * B (ix2 k c) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p c) ((contrEquiv1 dot_S512x2048_S2048x256_S512x256_1_0_0_1_n_n 2048 rfl rfl).symm k) = ix2 p k := funext fun a => Fin.ext (by
    match a with
    | ⟨0, _⟩ => exact lhs_mm1_0 _ _
    | ⟨1, _⟩ => exact (lhs_mm1_1 _ _).trans hk)
  have er : dot_S512x2048_S2048x256_S512x256_1_0_0_1_n_n.rhsIdx (ix2 p c) ((contrEquiv1 dot_S512x2048_S2048x256_S512x256_1_0_0_1_n_n 2048 rfl rfl).symm k) = ix2 k c := funext fun a => Fin.ext (by
    match a with
    | ⟨0, _⟩ => exact (rhs_mm1_0 _ _).trans hk
    | ⟨1, _⟩ => exact rhs_mm1_1 _ _)
  rw [el, er]

/-! ## The second projection's product: [512, 256] by [256, 2048], contracting the tile's 256 columns -/

/-- The left operand's row is the result's row. -/
private theorem lhs_mm2_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
/-- The left operand's column is the contraction's coordinate. -/
private theorem lhs_mm2_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
/-- The right operand's row is the contraction's coordinate. -/
private theorem rhs_mm2_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
/-- The right operand's column is the result's column. -/
private theorem rhs_mm2_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- Into a zero accumulator the product's entry (p, c) is the sum over k of A (p, k) · B (k, c). -/
private theorem mm2_apply (A : FVec Ideal S512x256 .bf16) (B : FVec Ideal S256x2048 .bf16) (p : Fin 512) (c : Fin 2048) :
    matmul (F := Ideal) dot_S512x256_S256x2048_S512x2048_1_0_0_1_n_n none A B (constant (F := Ideal) S512x2048 .f32 0x00000000#32) (ix2 p c)
      = ∑ k : Fin 256, A (ix2 p k) * B (ix2 k c) := by
  simp only [matmul]
  rw [Ideal.matmul_constant_zero_apply, ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 p c) ((contrEquiv1 dot_S512x256_S256x2048_S512x2048_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S512x256_S256x2048_S512x2048_1_0_0_1_n_n.rhsIdx (ix2 p c) ((contrEquiv1 dot_S512x256_S256x2048_S512x2048_1_0_0_1_n_n 256 rfl rfl).symm k) = ix2 k c := funext fun a => Fin.ext (by
    match a with
    | ⟨0, _⟩ => exact (rhs_mm2_0 _ _).trans hk
    | ⟨1, _⟩ => exact rhs_mm2_1 _ _)
  rw [el, er]

/-! ## The logistic at an entry -/

/-- The logistic of a block at an entry is the logistic of the entry. -/
private theorem logistic_apply (a : FVec Ideal S512x256 .f32) (i : S512x256.Idx) :
    logistic a i = Ideal.logistic (a i) := rfl

/-! ## The two payloads -/

/-- The reset's payload is the zero block. -/
theorem pay1_apply (r : Fin 512) (h : Fin 2048) : (k0_pay1 (F := Ideal)) (ix3 0 r h) = 0 := by
  unfold k0_pay1
  rw [add_512x2048, broadcast_apply]
  exact Ideal.ofBits_zero_f32

/-- The accumulating store's payload at (r, h): what the block held there plus the point's contribution. -/
theorem pay2_apply (x0 : Vec Ideal S1x512x2048 .f32) (x1 x2 : Vec Ideal S1x2048x256 .f32) (x3 : Vec Ideal S1x256x2048 .f32)
    (xo : Vec Ideal S1x512x2048 .f32) (r : Fin 512) (h : Fin 2048) :
    k0_pay2 (F := Ideal) x0 x1 x2 x3 xo (ix3 0 r h) = xo (ix3 0 r h) + Cert.Spec.tileTerm x0 x1 x2 x3 r h := by
  unfold k0_pay2
  rw [add_512x2048, addf_apply, drop_512x2048, mm2_apply]
  unfold Cert.Spec.tileTerm Cert.Spec.swiglu
  congr 1
  refine Finset.sum_congr rfl fun f _ => ?_
  rw [truncf_apply, mulf_apply, mulf_apply, logistic_apply, truncf_apply, drop_256x2048, mm1_apply, mm1_apply]
  simp only [truncf_apply, drop_512x2048, drop_2048x256]

end Cert.KernelIdeal.Pay

end
-- ==== Proof.KIValue.lean ====
/-
  The kernel's result array, entry by entry, on the extended reals. After hidden tile j of a (token tile, expert)
  pair the output block holds the running sum `Spec.accOut … (j + 1)` of the pair's rows (induction over the grid's
  order: a reset point starts from zero, an accumulating point adds its tile's part to what the point before left);
  after the last tile that is the second projection `Spec.out3`; the block is written back there, the 16 write-backs
  tile the array, and so the array ends at `Spec.G3` of the arrays the region found.
-/
import proofs.«118478_j43731357008245_1_alg».proof.Proof.KIPieces
import proofs.«118478_j43731357008245_1_alg».proof.Proof.KIBlocks
import proofs.«118478_j43731357008245_1_alg».proof.Proof.KIPayload
import proofs.«118478_j43731357008245_1_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The running sum, and one grid point's contribution read off the arrays -/

/-- One more step of the running sum, at a hidden tile given as an element of its range. -/
theorem accOut_succ_fin (x : FVec Ideal Cert.Spec.SX .f32) (w1 : FVec Ideal Cert.Spec.SW1 .f32) (w2 : FVec Ideal Cert.Spec.SW2 .f32)
    (e : Fin 8) (t : Fin 1024) (h : Fin 2048) (j : Fin 32) :
    Cert.Spec.accOut x w1 w2 e t h (j.val + 1) = Cert.Spec.accOut x w1 w2 e t h j.val + Cert.Spec.tileSum x w1 w2 e t h j := by
  show Cert.Spec.accOut x w1 w2 e t h j.val + (if hn : j.val < 32 then Cert.Spec.tileSum x w1 w2 e t h ⟨j.val, hn⟩ else 0) = _
  rw [dif_pos j.isLt]

/-- A grid point's contribution, from blocks that are the arrays' entries at expert e, token tile tt, hidden tile j,
    is that tile's part of the second projection. -/
theorem tileTerm_of_blocks (x : FVec Ideal Cert.Spec.SX .f32) (w1 : FVec Ideal Cert.Spec.SW1 .f32) (w2 : FVec Ideal Cert.Spec.SW2 .f32)
    (x0 : FVec Ideal Cert.Spec.BX .f32) (x1 x2 : FVec Ideal Cert.Spec.BW1 .f32) (x3 : FVec Ideal Cert.Spec.BW2 .f32)
    (e : Fin 8) (tt : Fin 2) (j : Fin 32)
    (h0 : ∀ (r : Fin 512) (k : Fin 2048), x0 (ix3 0 r k) = x (ix3 e (Cert.Spec.tileRow tt r) k))
    (h1 : ∀ (k : Fin 2048) (f' : Fin 256), x1 (ix3 0 k f') = w1 (ix3 e k (Cert.Spec.colG (Cert.Spec.tileCol j f'))))
    (h2 : ∀ (k : Fin 2048) (f' : Fin 256), x2 (ix3 0 k f') = w1 (ix3 e k (Cert.Spec.colV (Cert.Spec.tileCol j f'))))
    (h3 : ∀ (f' : Fin 256) (h : Fin 2048), x3 (ix3 0 f' h) = w2 (ix3 e (Cert.Spec.tileCol j f') h))
    (r : Fin 512) (h : Fin 2048) :
    Cert.Spec.tileTerm x0 x1 x2 x3 r h = Cert.Spec.tileSum x w1 w2 e (Cert.Spec.tileRow tt r) h j := by
  unfold Cert.Spec.tileTerm Cert.Spec.tileSum Cert.Spec.act Cert.Spec.fc1
  refine Finset.sum_congr rfl fun f' _ => ?_
  rw [h3 f' h]
  congr 2
  · exact Finset.sum_congr rfl fun k _ => by rw [h0 r k, h1 k f']
  · exact Finset.sum_congr rfl fun k _ => by rw [h0 r k, h2 k f']

/-! ## The arrays the region finds and the blocks of a grid point -/

/-- The reshaped tokens, -/
abbrev xarr (c : Dev nD) : FVec Ideal Cert.Spec.SX .f32 := V m c main_v0
/-- the first weights (gate columns then value columns), -/
abbrev w1arr (c : Dev nD) : FVec Ideal Cert.Spec.SW1 .f32 := V m c main_arg2
/-- the second weights. -/
abbrev w2arr (c : Dev nD) : FVec Ideal Cert.Spec.SW2 .f32 := V m c main_arg3
/-- Grid point t's token block, -/
abbrev xblk (c : Dev nD) (t : Fin cfg0.N) : FVec Ideal Cert.Spec.BX .f32 := iblk m c 0 t
/-- its gate block, -/
abbrev gblk (c : Dev nD) (t : Fin cfg0.N) : FVec Ideal Cert.Spec.BW1 .f32 := iblk m c 1 t
/-- its value block, -/
abbrev vblk (c : Dev nD) (t : Fin cfg0.N) : FVec Ideal Cert.Spec.BW1 .f32 := iblk m c 2 t
/-- its second-weight block. -/
abbrev w2blk (c : Dev nD) (t : Fin cfg0.N) : FVec Ideal Cert.Spec.BW2 .f32 := iblk m c 3 t
/-- What the output block holds after grid position n. -/
abbrev oblk (c : Dev nD) (n : ℕ) (hn : n < cfg0.N) : FVec Ideal Cert.Spec.BX .f32 := outsAt0 m c n hn

/-- Grid point t's contribution is hidden tile j(t)'s part of the second projection at expert e(t), rows of token tile tt(t). -/
theorem tileTerm_at (c : Dev nD) (t : Fin cfg0.N) (r : Fin 512) (h : Fin 2048) :
    Cert.Spec.tileTerm (xblk m c t) (gblk m c t) (vblk m c t) (w2blk m c t) r h
      = Cert.Spec.tileSum (xarr m c) (w1arr m c) (w2arr m c) (eOf t) (Cert.Spec.tileRow (ttOf t) r) h (jOf t) :=
  tileTerm_of_blocks (xarr m c) (w1arr m c) (w2arr m c) (xblk m c t) (gblk m c t) (vblk m c t) (w2blk m c t) (eOf t) (ttOf t) (jOf t)
    (iblk0_apply m c t) (iblk1_apply m c t) (iblk2_apply m c t) (iblk3_apply m c t) r h

/-! ## The invariant: after grid position t the output block holds the running sum through hidden tile j(t) -/

/-- The grid position before an accumulating one has the same token tile and expert, and the hidden tile before. -/
theorem pred_facts (t : Fin cfg0.N) (h0 : ¬t.val % 32 = 0) (hp : t.val - 1 < cfg0.N) :
    ttOf ⟨t.val - 1, hp⟩ = ttOf t ∧ eOf ⟨t.val - 1, hp⟩ = eOf t ∧ (jOf ⟨t.val - 1, hp⟩).val + 1 = (jOf t).val := by
  refine ⟨Fin.ext ?_, Fin.ext ?_, ?_⟩
  · show (t.val - 1) / 256 = t.val / 256
    omega
  · show (t.val - 1) / 32 % 8 = t.val / 32 % 8
    omega
  · show (t.val - 1) % 32 + 1 = t.val % 32
    omega

/-- After grid position t, entry (r, h) of the output block is the running sum of row r of token tile tt(t), expert e(t),
    through hidden tile j(t): zero plus the first tile's part at a reset point, the sum before plus this tile's part otherwise. -/
theorem outs_eq (c : Dev nD) (n : ℕ) : ∀ (t : Fin cfg0.N), t.val = n → ∀ (r : Fin 512) (h : Fin 2048),
    oblk m c t.val t.isLt (ix3 0 r h)
      = Cert.Spec.accOut (xarr m c) (w1arr m c) (w2arr m c) (eOf t) (Cert.Spec.tileRow (ttOf t) r) h ((jOf t).val + 1) := by
  induction n using Nat.strong_induction_on with
  | _ n ih =>
    intro t ht r h
    rw [accOut_succ_fin, ← tileTerm_at m c t r h]
    by_cases h0 : t.val % 32 = 0
    · have hj : (jOf t).val = 0 := h0
      rw [hj]
      refine (congrFun (outsAt0_A m c t h0) (ix3 0 r h)).trans ?_
      refine (congrFun (out0_A_4_eq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t)) (ix3 0 r h)).trans ?_
      refine (Pay.pay2_apply (iblk m c 0 t) (iblk m c 1 t) (iblk m c 2 t) (iblk m c 3 t) (k0_pay1 (F := Ideal)) r h).trans ?_
      rw [Pay.pay1_apply]
      rfl
    · have hp : t.val - 1 < cfg0.N := Nat.lt_of_le_of_lt (Nat.sub_le _ _) t.isLt
      obtain ⟨ett, ee, ej⟩ := pred_facts t h0 hp
      have ih' := ih (t.val - 1) (by omega) ⟨t.val - 1, hp⟩ rfl r h
      rw [ett, ee, ej] at ih'
      refine (congrFun (outsAt0_B m c t h0) (ix3 0 r h)).trans ?_
      refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) hp)) (ix3 0 r h)).trans ?_
      refine (Pay.pay2_apply (iblk m c 0 t) (iblk m c 1 t) (iblk m c 2 t) (iblk m c 3 t) (outsAt0 m c (t.val - 1) hp) r h).trans ?_
      exact congrArg (· + Cert.Spec.tileTerm (xblk m c t) (gblk m c t) (vblk m c t) (w2blk m c t) r h) ih'

/-! ## What a write-back writes: a block of the specification's array -/

/-- The output window's block indices at grid position t: (expert, token tile, 0). -/
theorem idx_w4 : ∀ t : Fin cfg0.N, win0_4.index t (0 : Fin 3) = t.val / 32 % 8
    ∧ win0_4.index t (1 : Fin 3) = t.val / 256
    ∧ win0_4.index t (2 : Fin 3) = 0 :=
  (by decide +kernel : ∀ t : Fin grid0.N, _)

/-- The specification's array of the arrays the region finds. -/
abbrev garr (c : Dev nD) : FVec Ideal Cert.Spec.SX .f32 := Cert.Spec.G3 (xarr m c) (w1arr m c) (w2arr m c)

/-- Entry (0, r, h) of grid point t's output block sits in the array at (e(t), row r of token tile tt(t), h). -/
theorem emb_w4 (t : Fin cfg0.N) (r : Fin 512) (h : Fin 2048) :
    (((cfg0.win 4).blk t).view.emb (ix3 0 r h) : S8x1024x2048.Idx) = ix3 (eOf t) (Cert.Spec.tileRow (ttOf t) r) h := by
  obtain ⟨e0, e1, e2⟩ := idx_w4 t
  funext a; apply Fin.ext
  match a with
  | ⟨0, _⟩ => show win0_4.index t (0 : Fin 3) * 1 + 1 * 0 = t.val / 32 % 8; omega
  | ⟨1, _⟩ => show win0_4.index t (1 : Fin 3) * 512 + 1 * r.val = t.val / 256 * 512 + r.val; omega
  | ⟨2, _⟩ => show win0_4.index t (2 : Fin 3) * 2048 + 1 * h.val = h.val; omega

/-- At a write-back point (the last hidden tile) the block written is the block of the second projection. -/
theorem flushed_eq (c : Dev nD) (t : Fin cfg0.N) (hf : (cfg0.win 4).flush t = true) :
    (dats m 0 c).flushed 4 t = ((cfg0.win 4).blk t).view.read (Elt Ideal) (garr m c) := by
  have h31 : t.val % 32 = 31 := (flush0_4 t).mp hf
  show (cfg0.win 4).cut (grid0.coords t) ((dats m 0 c).after 4 t) = _
  rw [after0_4]
  funext y
  obtain ⟨a, r, h, rfl⟩ : ∃ (a : Fin 1) (r : Fin 512) (h : Fin 2048), y = ix3 a r h := ⟨y 0, y 1, y 2, eq_ix3 y⟩
  obtain rfl : a = 0 := Subsingleton.elim _ _
  rw [View.read_apply]
  show oblk m c t.val t.isLt (ix3 0 r h) = garr m c (((cfg0.win 4).blk t).view.emb (ix3 0 r h))
  rw [emb_w4 t r h, outs_eq m c t.val t rfl r h]
  have hj : (jOf t).val + 1 = 32 := by show t.val % 32 + 1 = 32; omega
  rw [hj, Cert.Spec.accOut_32]
  rfl

/-! ## The write-backs tile the array -/

/-- An index of the array is in grid point t's output block iff each coordinate is in the block's range on its axis. -/
theorem mem_blk4 (t : Fin cfg0.N) (i : S8x1024x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v1).slice (win0_4.rect t)).set ↔ _
  rw [View.set_slice_whole, Rect.mem_set_unit]
  exact Iff.rfl

/-- Entry (e, row, h) of the array is written back at the last hidden tile of (token tile row / 512, expert e). -/
theorem cover4 (i : S8x1024x2048.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 2048 := (i 2).isLt
  have hN : cfg0.N = 512 := N_0
  refine ⟨⟨((i 1).val / 512 * 8 + (i 0).val) * 32 + 31, by rw [hN]; omega⟩, (flush0_4 _).mpr (by show (((i 1).val / 512 * 8 + (i 0).val) * 32 + 31) % 32 = 31; omega), ?_⟩
  rw [mem_blk4]
  obtain ⟨e0, e1, e2⟩ := idx_w4 ⟨((i 1).val / 512 * 8 + (i 0).val) * 32 + 31, by rw [hN]; omega⟩
  intro a
  match a with
  | ⟨0, _⟩ =>
    show win0_4.index _ (0 : Fin 3) * 1 ≤ (i 0).val ∧ (i 0).val < win0_4.index _ (0 : Fin 3) * 1 + 1
    rw [e0]
    show (((i 1).val / 512 * 8 + (i 0).val) * 32 + 31) / 32 % 8 * 1 ≤ (i 0).val ∧ (i 0).val < (((i 1).val / 512 * 8 + (i 0).val) * 32 + 31) / 32 % 8 * 1 + 1
    omega
  | ⟨1, _⟩ =>
    show win0_4.index _ (1 : Fin 3) * 512 ≤ (i 1).val ∧ (i 1).val < win0_4.index _ (1 : Fin 3) * 512 + 512
    rw [e1]
    show (((i 1).val / 512 * 8 + (i 0).val) * 32 + 31) / 256 * 512 ≤ (i 1).val ∧ (i 1).val < (((i 1).val / 512 * 8 + (i 0).val) * 32 + 31) / 256 * 512 + 512
    omega
  | ⟨2, _⟩ =>
    show win0_4.index _ (2 : Fin 3) * 2048 ≤ (i 2).val ∧ (i 2).val < win0_4.index _ (2 : Fin 3) * 2048 + 2048
    rw [e2]
    omega

/-- The output array after the region: the specification's array of the reshaped tokens and the two weight arrays. -/
theorem final4 (c : Dev nD) :
    ((dats (F := Ideal) m 0 c).arrAt 4 cfg0.N : S8x1024x2048.Idx → EReal)
      = Cert.Spec.G3 (V m c main_v0) (V m c main_arg2) (V m c main_arg3) :=
  (dats (F := Ideal) m 0 c).arrAt_eq_of_cover 4 (garr m c) (flushed_eq m c) cover4

end Cert.KernelIdeal.Val

end
-- ==== Proof.RefG.lean ====
/-
  The reference's result, read index by index: before its last reshape the reference holds `Spec.G3` of the reshaped
  tokens and the two weight arrays — the batched `dot_general`s are the sums over the contracted axis, the two slices of the
  fused projection are its gate and value columns, and jax's expansion of `silu` (negate, exponential, add one,
  divide one by it, multiply) is `g · logistic g` on the extended reals.
-/
import proofs.«118478_j43731357008245_1_alg».proof.Proof.Gen.ReferenceIdeal.Read
import proofs.«118478_j43731357008245_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx

/-- The pattern `0x3F800000` of the 32-bit format denotes one. -/
theorem ofBits_one : (FloatOps.ofBits (F := Ideal) .f32 0x3F800000#32 : Ideal .f32) = 1 := by
  rw [Ideal.ofBits_def]
  simp [Ideal.ofBits, Ideal.ieee, -EReal.coe_mul]
  norm_num

/-- The first slice of the fused projection holds its gate columns. -/
theorem v2_eq (x0 : (⟨S8192x2048, .f32⟩ : BufTy).Contents (Elt Ideal)) (x2 : (⟨S8x2048x16384, .f32⟩ : BufTy).Contents (Elt Ideal))
    (j : S8x1024x8192.Idx) :
    Read.val_main_v2 (F := Ideal) x0 x2 j
      = Cert.Spec.fc1 (Read.val_main_v0 (F := Ideal) x0) x2 (j 0) (j 1) (Cert.Spec.colG (j 2)) := by
  rw [Read.val_main_v2_apply, Read.val_main_v1_apply]
  unfold Cert.Spec.fc1
  refine Finset.sum_congr rfl fun k _ => ?_
  have el : Read.lidx_main_v1 (Read.idx_main_v2 j) k = ix3 (j 0) (j 1) k := funext fun a => Fin.ext (by
    match a with
    | ⟨0, _⟩ => rfl
    | ⟨1, _⟩ => rfl
    | ⟨2, _⟩ => rfl)
  have er : Read.ridx_main_v1 (Read.idx_main_v2 j) k = ix3 (j 0) k (Cert.Spec.colG (j 2)) := funext fun a => Fin.ext (by
    match a with
    | ⟨0, _⟩ => rfl
    | ⟨1, _⟩ => rfl
    | ⟨2, _⟩ => rfl)
  rw [el, er]
  rfl

/-- The second slice of the fused projection holds its value columns. -/
theorem v3_eq (x0 : (⟨S8192x2048, .f32⟩ : BufTy).Contents (Elt Ideal)) (x2 : (⟨S8x2048x16384, .f32⟩ : BufTy).Contents (Elt Ideal))
    (j : S8x1024x8192.Idx) :
    Read.val_main_v3 (F := Ideal) x0 x2 j
      = Cert.Spec.fc1 (Read.val_main_v0 (F := Ideal) x0) x2 (j 0) (j 1) (Cert.Spec.colV (j 2)) := by
  rw [Read.val_main_v3_apply, Read.val_main_v1_apply]
  unfold Cert.Spec.fc1
  refine Finset.sum_congr rfl fun k _ => ?_
  have el : Read.lidx_main_v1 (Read.idx_main_v3 j) k = ix3 (j 0) (j 1) k := funext fun a => Fin.ext (by
    match a with
    | ⟨0, _⟩ => rfl
    | ⟨1, _⟩ => rfl
    | ⟨2, _⟩ => rfl)
  have er : Read.ridx_main_v1 (Read.idx_main_v3 j) k = ix3 (j 0) k (Cert.Spec.colV (j 2)) := funext fun a => Fin.ext (by
    match a with
    | ⟨0, _⟩ => rfl
    | ⟨1, _⟩ => rfl
    | ⟨2, _⟩ => exact Nat.add_comm 8192 (j 2).val)
  rw [el, er]
  rfl

/-- The gated product, before the second projection, is the specification's activation. -/
theorem v5_eq (x0 : (⟨S8192x2048, .f32⟩ : BufTy).Contents (Elt Ideal)) (x2 : (⟨S8x2048x16384, .f32⟩ : BufTy).Contents (Elt Ideal))
    (j : S8x1024x8192.Idx) :
    Read.val_main_v5 (F := Ideal) x0 x2 j
      = Cert.Spec.act (Read.val_main_v0 (F := Ideal) x0) x2 (j 0) (j 1) (j 2) := by
  rw [Read.val_main_v5_apply, Read.val_main_v4_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, ofBits_one,
    v2_eq, v3_eq]
  rfl

/-- The reference's second projection, before the final reshape, is the specification's array of the reshaped tokens. -/
theorem ref_v6_eq (x0 : (⟨S8192x2048, .f32⟩ : BufTy).Contents (Elt Ideal)) (x2 : (⟨S8x2048x16384, .f32⟩ : BufTy).Contents (Elt Ideal))
    (x3 : (⟨S8x8192x2048, .f32⟩ : BufTy).Contents (Elt Ideal)) :
    Read.val_main_v6 (F := Ideal) x0 x2 x3 = Cert.Spec.G3 (Read.val_main_v0 (F := Ideal) x0) x2 x3 := by
  funext i
  rw [Read.val_main_v6_apply]
  show _ = Cert.Spec.out3 (Read.val_main_v0 (F := Ideal) x0) x2 x3 (i 0) (i 1) (i 2)
  unfold Cert.Spec.out3
  refine Finset.sum_congr rfl fun f _ => ?_
  have er : Read.ridx_main_v6 i f = ix3 (i 0) f (i 2) := funext fun a => Fin.ext (by
    match a with
    | ⟨0, _⟩ => rfl
    | ⟨1, _⟩ => rfl
    | ⟨2, _⟩ => rfl)
  rw [er, v5_eq]
  rfl

end Cert.ReferenceIdeal.RefValue

end
-- ==== Proof.lean ====
/-
  The certificate of the grouped expert MLP kernel against its reference: per expert, a linear layer, the gate
  `silu(g) · v` on the two halves of its output, and a second linear layer.

  The kernel walks a grid (token tile, expert, hidden tile) and keeps, per (token tile, expert), the running sum over
  the hidden tiles of `act · w2` restricted to the tile, reset at the first tile and written back after the last; the
  reference computes the two batched products whole. On the extended reals a change of float format is the identity, a
  matrix product into a zero accumulator is the plain sum, `logistic` and jax's expansion of it are one function, and the
  sum over the 32 tiles of the tiles' sums is the sum over the 8192 hidden columns by commutativity and associativity of
  + alone: the precondition is never opened. Both programs end in the same reshape of [8, 1024, 2048] to [8192, 2048].

  The frames of the two kernel programs are proved from the pipeline's launch theorem directly, the first weight array
  being read through two windows (its gate columns and its value columns), each holding half of it; the reference's
  frame and value are its run read back.
-/
import proofs.«118478_j43731357008245_1_alg».proof.Defs
import proofs.«118478_j43731357008245_1_alg».proof.Proof.Gen.Kernel
import proofs.«118478_j43731357008245_1_alg».proof.Proof.Gen.KernelIdeal
import proofs.«118478_j43731357008245_1_alg».proof.Proof.Gen.ReferenceIdeal
import proofs.«118478_j43731357008245_1_alg».proof.Proof.Gen.Pre_finite_inputs
import proofs.«118478_j43731357008245_1_alg».proof.Proof.Gen.ReferenceIdeal.Run
import proofs.«118478_j43731357008245_1_alg».proof.Proof.Gen.ReferenceIdeal.Read
import proofs.«118478_j43731357008245_1_alg».proof.Proof.KLaunch
import proofs.«118478_j43731357008245_1_alg».proof.Proof.KILaunch
import proofs.«118478_j43731357008245_1_alg».proof.Proof.KIValue
import proofs.«118478_j43731357008245_1_alg».proof.Proof.RefG

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Fr.frame m ρ

theorem frame_pi : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reshape of one array: the kernel's output array after the region is the specification's
    array of the reshaped tokens and the weights, and so is the reference's second projection. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Fr.result (F := Ideal) m c, Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.2.1, (hagree c).2.2.2]
  show _ = Cert.KernelIdeal.Fr.result (F := Ideal) m c
  unfold Cert.ReferenceIdeal.Read.val_main_v7 Cert.KernelIdeal.Fr.result
  rw [Cert.ReferenceIdeal.RefValue.ref_v6_eq, Cert.KernelIdeal.Val.final4, Cert.KernelIdeal.Fr.V_main_v0, Cert.KernelIdeal.Fr.V_main_arg2, Cert.KernelIdeal.Fr.V_main_arg3]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
